-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S14x1024 : Shape := ⟨2, ![14, 1024]⟩
abbrev S_ : Shape := ⟨0, ![]⟩

class Facts : Prop where
  bcast_S_S14x1024 : S_.BroadcastsInDim S14x1024 (![] : Fin 0 → Fin S14x1024.rank)
  reducesTo_S14x1024_S_d0_1 : S14x1024.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : IVec S4x8192 32) (main_arg1 : FVec F S14x1024 .f32) : IVec S_ 1 :=
  let main_v0 : FVec F S14x1024 .f32 := Host.absf main_arg1
  let main_cst : FVec F S_ .f32 := constant S_ .f32 0x7F800000#32
  let main_v1 : FVec F S14x1024 .f32 := broadcastInDim S14x1024 ![] bcast_S_S14x1024 main_cst
  let main_v2 : IVec S14x1024 1 := cmpf .olt main_v0 main_v1
  let main_c : IVec S_ 1 := constantI S_ 1 1#1
  let main_v3 : IVec S_ 1 := (fun x v => Host.reduce IntOp.andi x v reducesTo_S14x1024_S_d0_1 h_S_) main_v2 main_c
  let main_c_0 : IVec S_ 32 := constantI S_ 32 0#32
  let main_v4 : IVec S4x8192 32 := broadcastInDim S4x8192 ![] bcast_S_S4x8192 main_c_0
  let main_v5 : IVec S4x8192 1 := cmpi .sge main_arg0 main_v4
  let main_c_1 : IVec S_ 32 := constantI S_ 32 8192#32
  let main_v6 : IVec S4x8192 32 := broadcastInDim S4x8192 ![] bcast_S_S4x8192 main_c_1
  let main_v7 : IVec S4x8192 1 := cmpi .slt main_arg0 main_v6
  let main_v8 : IVec S4x8192 1 := andi main_v5 main_v7
  let main_c_2 : IVec S_ 1 := constantI S_ 1 1#1
  let main_v9 : IVec S_ 1 := (fun x v => Host.reduce IntOp.andi x v reducesTo_S4x8192_S_d0_1 h_S_) main_v8 main_c_2
  let main_v10 : IVec S_ 1 := andi main_v3 main_v9
  main_v10
-- ==== Kernel.lean ====
abbrev S4x8192 : Shape := ⟨2, ![4, 8192]⟩
abbrev S14x1024 : Shape := ⟨2, ![14, 1024]⟩
abbrev S32768 : Shape := ⟨1, ![32768]⟩
abbrev S_ : Shape := ⟨0, ![]⟩
abbrev S13x1024 : Shape := ⟨2, ![13, 1024]⟩
abbrev S32768x1024 : Shape := ⟨2, ![32768, 1024]⟩
abbrev S2048 : Shape := ⟨1, ![2048]⟩
abbrev S2048x1024 : Shape := ⟨2, ![2048, 1024]⟩
abbrev S1x13 : Shape := ⟨2, ![1, 13]⟩
abbrev S2048x1 : Shape := ⟨2, ![2048, 1]⟩
abbrev S2048x13 : Shape := ⟨2, ![2048, 13]⟩

abbrev nBuf : Space → Nat
  | .hbm => 20
  | .vmem => 5
  | .smem => 0
  | _ => 0

abbrev bufTy : (tb : Table) → Fin (tcTables nBuf tb) → BufTy
  | .hbm, ⟨0, _⟩ => ⟨S4x8192, .i32⟩
  | .hbm, ⟨1, _⟩ => ⟨S14x1024, .f32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S32768, .i1⟩
  | .hbm, ⟨10, _⟩ => ⟨S_, .i32⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S13x1024, .f32⟩
  | .hbm, ⟨15, _⟩ => ⟨S13x1024, .bf16⟩
  | .hbm, ⟨16, _⟩ => ⟨S_, .i32⟩
  | .hbm, ⟨17, _⟩ => ⟨S_, .i32⟩
  | .hbm, ⟨18, _⟩ => ⟨S32768, .i32⟩
  | .hbm, ⟨19, _⟩ => ⟨S32768x1024, .f32⟩
  | .local _ .vmem, ⟨0, _⟩ => ⟨S2048, .i32⟩
  | .local _ .vmem, ⟨1, _⟩ => ⟨S2048, .i32⟩
  | .local _ .vmem, ⟨2, _⟩ => ⟨S13x1024, .bf16⟩
  | .local _ .vmem, ⟨3, _⟩ => ⟨S2048x1024, .f32⟩
  | .local _ .vmem, ⟨4, _⟩ => ⟨S2048x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_v2 : Ref sig .tc := ⟨.hbm, 5, rfl⟩
abbrev main_call0_c_0 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c_2 : Ref sig .tc := ⟨.hbm, 16, rfl⟩
abbrev main_call0_call1_v0 : Ref sig .tc := ⟨.hbm, 17, rfl⟩
abbrev main_call0_v9 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192_S32768 : S4x8192.ShapeCasts S32768
  bcast_S_S32768 : S_.BroadcastsInDim S32768 (![] : Fin 0 → Fin S32768.rank)
  slices_S14x1024_S13x1024_0_0 : S14x1024.Slices ![0, 0] S13x1024
  bitsLt_bf16_f32 : FTy.bits .bf16 < FTy.bits .f32
  pads_S32768_S32768_000 : S32768.Pads (![0] : Fin 1 → Nat) ![0] ![0] S32768
  h_S_ : 0 < S_.numel
  inb_S2048_S2048_0 : ∀ a, (![0] : Fin 1 → Nat) a + S2048.size a ≤ S2048.size a
  h_S2048 : 0 < S2048.numel
  shapeCasts_S2048_S2048 : S2048.ShapeCasts S2048
  iota_S1x13_d1_w32 : S1x13.Iotas .tc 32 [1]
  shapeCasts_S2048_S2048x1 : S2048.ShapeCasts S2048x1
  broadcasts_S2048x1_S2048x13 : S2048x1.Broadcasts S2048x13
  broadcasts_S1x13_S2048x13 : S1x13.Broadcasts S2048x13
  inb_S13x1024_S13x1024_0_0 : ∀ a, (![0, 0] : Fin 2 → Nat) a + S13x1024.size a ≤ S13x1024.size a
  h_S13x1024 : 0 < S13x1024.numel
  shapeCasts_S13x1024_S13x1024 : S13x1024.ShapeCasts S13x1024
  inb_S2048x1024_S2048x1024_0_0 : ∀ a, (![0, 0] : Fin 2 → Nat) a + S2048x1024.size a ≤ S2048x1024.size a
  h_S2048x1024 : 0 < S2048x1024.numel
  dot_S2048x13_S13x1024_S2048x1024_1_0_0_1_n_n_wf : DotDims.WF S2048x13 S13x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S32768.size a
  hwx0_0 : ∀ i : grid0.Coords, EltTy.bits .i32 = 32 ∨ (Rect.block (s := S32768) S2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x1024.size a ≤ S13x1024.size a
  hwx0_1 : ∀ i : grid0.Coords, EltTy.bits .bf16 = 32 ∨ (Rect.block (s := S13x1024) S13x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

def dot_S2048x13_S13x1024_S2048x1024_1_0_0_1_n_n : DotDims S2048x13 S13x1024 S2048x1024 where
  lhsContracting := [1]
  rhsContracting := [0]
  lhsNonContracting := [0]
  rhsNonContracting := [1]
  lhsBatch := []
  rhsBatch := []
  wf := dot_S2048x13_S13x1024_S2048x1024_1_0_0_1_n_n_wf

abbrev win0_0 : Pipeline.Window sig grid0 :=
  Pipeline.Window.ofSpec (Memref.whole main_call0_v9) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S13x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192 : Shape := ⟨2, ![4, 8192]⟩
abbrev S14x1024 : Shape := ⟨2, ![14, 1024]⟩
abbrev S32768 : Shape := ⟨1, ![32768]⟩
abbrev S13 : Shape := ⟨1, ![13]⟩
abbrev S32768x1 : Shape := ⟨2, ![32768, 1]⟩
abbrev S1x13 : Shape := ⟨2, ![1, 13]⟩
abbrev S32768x13 : Shape := ⟨2, ![32768, 13]⟩
abbrev S_ : Shape := ⟨0, ![]⟩
abbrev S13x1024 : Shape := ⟨2, ![13, 1024]⟩
abbrev S32768x1024 : Shape := ⟨2, ![32768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S14x1024, .f32⟩
  | .hbm, ⟨2, _⟩ => ⟨S32768, .i32⟩
  | .hbm, ⟨3, _⟩ => ⟨S13, .i32⟩
  | .hbm, ⟨4, _⟩ => ⟨S32768x1, .i32⟩
  | .hbm, ⟨5, _⟩ => ⟨S1x13, .i32⟩
  | .hbm, ⟨6, _⟩ => ⟨S32768x13, .i32⟩
  | .hbm, ⟨7, _⟩ => ⟨S32768x13, .i32⟩
  | .hbm, ⟨8, _⟩ => ⟨S32768x13, .i32⟩
  | .hbm, ⟨9, _⟩ => ⟨S_, .i32⟩
  | .hbm, ⟨10, _⟩ => ⟨S32768x13, .i32⟩
  | .hbm, ⟨11, _⟩ => ⟨S32768x13, .i32⟩
  | .hbm, ⟨12, _⟩ => ⟨S32768x13, .f32⟩
  | .hbm, ⟨13, _⟩ => ⟨S13x1024, .f32⟩
  | .hbm, ⟨14, _⟩ => ⟨S32768x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S4x8192_S32768 : S4x8192.ShapeCasts S32768
  bcast_S32768_S32768x1_0 : S32768.BroadcastsInDim S32768x1 (![0] : Fin 1 → Fin S32768x1.rank)
  bcast_S13_S1x13_1 : S13.BroadcastsInDim S1x13 (![1] : Fin 1 → Fin S1x13.rank)
  bcast_S32768x1_S32768x13_0_1 : S32768x1.BroadcastsInDim S32768x13 (![0, 1] : Fin 2 → Fin S32768x13.rank)
  bcast_S1x13_S32768x13_0_1 : S1x13.BroadcastsInDim S32768x13 (![0, 1] : Fin 2 → Fin S32768x13.rank)
  bcast_S_S32768x13 : S_.BroadcastsInDim S32768x13 (![] : Fin 0 → Fin S32768x13.rank)
  slices_S14x1024_S13x1024_0_0 : S14x1024.Slices ![0, 0] S13x1024
  dot_S32768x13_S13x1024_S32768x1024_1_0_0_1_n_n_wf : DotDims.WF S32768x13 S13x1024 S32768x1024 [1] [0] [0] [1] [] []

variable [Facts₀]

def dot_S32768x13_S13x1024_S32768x1024_1_0_0_1_n_n : DotDims S32768x13 S13x1024 S32768x1024 where
  lhsContracting := [1]
  rhsContracting := [0]
  lhsNonContracting := [0]
  rhsNonContracting := [1]
  lhsBatch := []
  rhsBatch := []
  wf := dot_S32768x13_S13x1024_S32768x1024_1_0_0_1_n_n_wf

class Facts : Prop extends Facts₀ where

variable [Facts]
-- ==== Proof.Domain.lean ====
/-
  What the precondition says of the ids: every entry `w` of the [4, 8192] id array satisfies `0 ≤ w` and `w < 8192` as
  signed words — stated as the conjunction of the two word comparisons being the bit 1, which is exactly the mask under
  which the kernel's host code keeps an id instead of replacing it by 0.

  The precondition is a conjunction of two "all entries" reductions; the second is over the mask
  `(x ≥ 0) & (x < 8192)`. A conjunction of bits is 1 only if both are, and an and-reduction is 1 only if every entry is.
-/
import proofs.«411446_j11562051961176_3_alg».proof.Pre_finite_inputs
import proofs.«411446_j11562051961176_3_alg».proof.Proof.Gen.Pre_finite_inputs
import Idealize.ShloMosaic.Lib.ReduceAll
import Idealize.ShloMosaic.Lib.ValueIdx
import Idealize.ShloMosaic.Lib.Affine

noncomputable section

namespace Cert.BitEmbed

open Idealize.ShloMosaic Idealize.ShloMosaic.ValueIdx

instance : Subsingleton Cert.Pre_finite_inputs.S_.Idx := ⟨fun _ _ => funext fun d => d.elim0⟩

/-- Under the precondition every id is in [0, 8192): both signed comparisons hold at every entry. -/
theorem inRange_of_pre {F : FTy → Type} [FloatOps F] (x : IVec Cert.Pre_finite_inputs.S4x8192 32)
    (e : FVec F Cert.Pre_finite_inputs.S14x1024 .f32)
    (h : Cert.Pre_finite_inputs.fn (F := F) x e = fun _ => 1#1) (i : Cert.Pre_finite_inputs.S4x8192.Idx) :
    IntOp.andi (IntOp.cmpi .sge (x i) 0#32) (IntOp.cmpi .slt (x i) 8192#32) = 1#1 := by
  have h0 := congrFun h ix0
  dsimp only [Cert.Pre_finite_inputs.fn] at h0
  obtain ⟨-, h9⟩ := IntOp.andi_eq_one.1 h0
  exact Host.reduce_andi_all _ _ _ _ _ h9 i

end Cert.BitEmbed

end
-- ==== Proof.Spec.lean ====
/-
  The function both programs compute, index by index.

  A position id is a 32-bit word `w`; its bit `k` (k = 0 … 12) is the word shifted right arithmetically by `k` and masked
  by 1, read as the real number 0 or 1. Row `r` of the result, column `q`, is the sum over the thirteen bits of
  bit_k(id of row r) · table[k, q]: the rows of the table selected by the set bits of the id, added up. Row `r` of the
  flattened ids is entry (r / 8192, r % 8192) of the [4, 8192] array; of the [14, 1024] table only rows 0 … 12 are read.
-/
import Idealize.ShloMosaic.PureOps.Ideal
import Idealize.ShloMosaic.Lib.ValueIdx

noncomputable section

open scoped BigOperators

namespace Cert.BitEmbed

open Idealize.ShloMosaic Idealize.ShloMosaic.ValueIdx

/-- Row `r` of the flattened ids is entry (r / 8192, r % 8192) of the [4, 8192] array. -/
abbrev pos (r : Fin 32768) : (⟨2, ![4, 8192]⟩ : Shape).Idx :=
  ix2 (⟨r.val / 8192, by have := r.isLt; omega⟩ : Fin 4) (⟨r.val % 8192, by omega⟩ : Fin 8192)

/-- Row `k` (one of the first thirteen), column `q` of the [14, 1024] table. -/
abbrev cell (k : Fin 13) (q : Fin 1024) : (⟨2, ![14, 1024]⟩ : Shape).Idx :=
  ix2 (⟨k.val, by have := k.isLt; omega⟩ : Fin 14) q

/-- Bit `k` of the word `w`, as the real 0 or 1: `(w >> k) & 1` read as a signed integer. -/
def bit (w : BitVec 32) (k : Fin 13) : EReal :=
  (((IntOp.andi (IntOp.shrsi .host w (BitVec.ofNat 32 k.val)) 1#32).toInt : ℝ) : EReal)

/-- The result: `out[r, q] = ∑ k < 13, bit_k(id r) · table[k, q]`. -/
def G (x : (⟨2, ![4, 8192]⟩ : Shape).Idx → BitVec 32) (e : (⟨2, ![14, 1024]⟩ : Shape).Idx → EReal) :
    (⟨2, ![32768, 1024]⟩ : Shape).Idx → EReal :=
  fun i => ∑ k : Fin 13, bit (x (pos (i 0))) k * e (cell k (i 1))

/-- A shift amount below 13 is below the word's width, so the arithmetic shift is the plain one on every unit: the
    units differ only on amounts of 32 or more. -/
theorem shrsi_small (u : ArithUnit) (w : BitVec 32) (k : Fin 13) :
    IntOp.shrsi u w (BitVec.ofNat 32 k.val) = w.sshiftRight' (BitVec.ofNat 32 k.val) := by
  unfold IntOp.shrsi
  rw [if_pos]
  rw [BitVec.toNat_ofNat]
  have := k.isLt
  omega

/-- So the bit does not depend on which unit shifts. -/
theorem bit_unit (u : ArithUnit) (w : BitVec 32) (k : Fin 13) :
    (((IntOp.andi (IntOp.shrsi u w (BitVec.ofNat 32 k.val)) 1#32).toInt : ℝ) : EReal) = bit w k := by
  unfold bit
  rw [shrsi_small u, shrsi_small .host]

end Cert.BitEmbed

end
-- ==== Proof.Reference.lean ====
/-
  The reference's result is `G`.

  Read one operation at a time, the reference's entry (r, q) is the sum over k < 13 of
  (signed integer of ((id r >> k) & 1)) · table[k, q]: the ids flattened (row r is entry (r / 8192, r % 8192)), laid along
  the rows of a [32768, 13] rectangle beside the shift amounts 0 … 12 laid along its columns, shifted, masked, converted,
  and contracted against the first thirteen rows of the table. That is `G` term by term.
-/
import proofs.«411446_j11562051961176_3_alg».proof.Proof.Gen.ReferenceIdeal.Read
import proofs.«411446_j11562051961176_3_alg».proof.Proof.Spec

noncomputable section

open scoped BigOperators

namespace Cert.BitEmbed

open Idealize.ShloMosaic Idealize.ShloMosaic.ValueIdx Cert.ReferenceIdeal Cert.ReferenceIdeal.Read

/-- The reference's last stage, at the extended reals, is `G` of the two arguments. -/
theorem reference_eq_G (x0 : (⟨S4x8192, .i32⟩ : BufTy).Contents (Elt Ideal)) (x1 : (⟨S14x1024, .f32⟩ : BufTy).Contents (Elt Ideal)) :
    val_main_v11 (F := Ideal) x0 x1 = G x0 x1 := by
  funext i
  rw [val_main_v11_apply]
  unfold G
  refine Finset.sum_congr rfl fun k _ => ?_
  rw [val_main_v9_apply, val_main_v8_apply, val_main_v6_apply, val_main_v4_apply, val_main_v2_apply, val_main_v0_apply,
    val_main_v5_apply, val_main_v3_apply, val_main_v1_apply, val_main_v7_apply, val_main_c_apply, val_main_v10_apply]
  have e1 : idx_main_v0 (idx_main_v2 (idx_main_v4 (lidx_main_v11 i k))) = pos (i 0) :=
    funext fun a => Fin.ext (by match a with | ⟨0, _⟩ => rfl | ⟨1, _⟩ => rfl)
  have e2 : idx_main_v10 (ridx_main_v11 i k) = cell k (i 1) :=
    funext fun a => Fin.ext (by match a with | ⟨0, _⟩ => rfl | ⟨1, _⟩ => rfl)
  rw [e1, e2]
  rfl

end Cert.BitEmbed

end
-- ==== Proof.HostSide.lean ====
/-
  What the kernel's two input windows hold when the region is entered.

  The id window's array is the [4, 8192] ids flattened to 32768 rows, each id kept where the mask
  `(id ≥ 0) & (id < 8192)` is 1 and replaced by 0 elsewhere, then padded by nothing (zero low, high and interior padding).
  Where every id is in range the mask is 1 everywhere, so the array is just the flattened ids: row `r` is entry
  (r / 8192, r % 8192). The table window's array is the first thirteen rows of the [14, 1024] table, narrowed in format;
  at the extended reals a change of format is the identity, so row k, column q of it is table[k, q].
-/
import proofs.«411446_j11562051961176_3_alg».proof.Proof.Gen.KernelIdeal.Frame
import proofs.«411446_j11562051961176_3_alg».proof.Proof.Spec
import Idealize.ShloMosaic.Lib.StableHlo.Run
import Idealize.ShloMosaic.Lib.Pipeline.Value
import Idealize.ShloMosaic.Lib.KernelVsHost

noncomputable section

namespace Cert.BitEmbed

open Idealize.ShloMosaic Idealize.ShloMosaic.TcCoe Idealize.ShloMosaic.ValueIdx Idealize.SL.Sem
open Cert.KernelIdeal Cert.KernelIdeal.Gen

variable {F : FTy → Type} [FloatOps F]

/-- The ids flattened: 32768 rows. -/
def flat (x : IVec S4x8192 32) : IVec S32768 32 := shapeCast S32768 x shapeCasts_S4x8192_S32768

/-- Row `r` of the flattened ids is entry (r / 8192, r % 8192). -/
theorem flat_apply (x : IVec S4x8192 32) (r : Fin 32768) : flat x (ix1 r) = x (pos r) := by
  unfold flat
  exact shapeCast_apply x shapeCasts_S4x8192_S32768 (ix1 r) (pos r)
    (by rewrite [Shape.rowMajor_val_two, Shape.rowMajor_val_one]; have h0 : r.val < 32768 := r.isLt
        show r.val / 8192 * 8192 + r.val % 8192 = r.val; omega)

/-- The id window's array: each flattened id kept where `(id ≥ 0) & (id < 8192)`, 0 elsewhere, padded by nothing. -/
def kept (x : IVec S4x8192 32) : IVec S32768 32 :=
  pad S32768 ![0] ![0] ![0]
    (select
      (andi (cmpi .sge (flat x) (broadcastInDim S32768 ![] bcast_S_S32768 (constantI S_ 32 0#32)))
        (cmpi .slt (flat x) (broadcastInDim S32768 ![] bcast_S_S32768 (constantI S_ 32 8192#32))))
      (flat x) (broadcastInDim S32768 ![] bcast_S_S32768 (constantI S_ 32 0#32)))
    (constantI S_ 32 0#32) pads_S32768_S32768_000 h_S_

/-- Where every id is in range, row `r` of that array is the id itself. -/
theorem kept_apply (x : IVec S4x8192 32)
    (hx : ∀ i : S4x8192.Idx, IntOp.andi (IntOp.cmpi .sge (x i) 0#32) (IntOp.cmpi .slt (x i) 8192#32) = 1#1)
    (r : Fin 32768) : kept x (ix1 r) = x (pos r) := by
  unfold kept
  rw [pad_apply_of_inside (![0] : Fin 1 → Nat) ![0] ![0] _ _ pads_S32768_S32768_000 h_S_ (ix1 r) (ix1 r)
    (fun a => by match a with | ⟨0, _⟩ => show r.val = 0 + r.val * (0 + 1); omega)]
  rw [select_apply]
  have hm : (andi (cmpi .sge (flat x) (broadcastInDim S32768 ![] bcast_S_S32768 (constantI S_ 32 0#32)))
      (cmpi .slt (flat x) (broadcastInDim S32768 ![] bcast_S_S32768 (constantI S_ 32 8192#32)))) (ix1 r) = 1#1 := by
    show IntOp.andi (IntOp.cmpi .sge (flat x (ix1 r)) 0#32) (IntOp.cmpi .slt (flat x (ix1 r)) 8192#32) = 1#1
    rw [flat_apply]
    exact hx (pos r)
  rw [hm, select_one, flat_apply]

variable (m : (ℓ : Loc nD τ sig) → Buf (Elt F) ℓ)

/-- The id window's array at region entry is `kept` of the id argument. -/
theorem V_ids (c : Dev nD) :
    (V m c main_call0_v9 : S32768.Idx → BitVec 32) = kept (m ((c : Thread nD τ).loc main_arg0)) := by
  dsimp only [V, hostOps0]; after_results; rfl

/-- The table window's array at region entry: the first thirteen rows of the table argument, narrowed in format. -/
theorem V_table (c : Dev nD) :
    (V m c main_call0_v8 : S13x1024.Idx → F .bf16)
      = truncf .bf16 (extractStridedSlice S13x1024 ![0, 0] (m ((c : Thread nD τ).loc main_arg1)) slices_S14x1024_S13x1024_0_0) bitsLt_bf16_f32 := by
  dsimp only [V, hostOps0]; after_results; rfl

end Cert.BitEmbed

end
-- ==== Proof.Payload.lean ====
/-
  The kernel body's one stored value, read at an index.

  The body takes a block of 2048 ids and the [13, 1024] table block. It lays the ids down the rows of a [2048, 13]
  rectangle and the shift amounts 0 … 12 along its columns, shifts each id right arithmetically by its column's amount, masks
  by 1, converts to a float, and multiplies the [2048, 13] matrix of bits with the table into a zero accumulator. So entry
  (p, q) of what it stores is the sum over k < 13 of bit_k(id p) · table[k, q]; the shift's amount is below the word's width,
  so the vector unit's shift is the same plain arithmetic shift the specification's `bit` uses.
-/
import proofs.«411446_j11562051961176_3_alg».proof.Proof.Gen.KernelIdeal.Skeleton
import proofs.«411446_j11562051961176_3_alg».proof.Proof.Spec
import Idealize.ShloMosaic.Lib.ValueIdx
import Idealize.ShloMosaic.Lib.Pipeline.Value
import Idealize.ShloMosaic.PureOps.Ideal.Laws

noncomputable section

open scoped BigOperators

namespace Cert.BitEmbed

open Idealize.ShloMosaic Idealize.ShloMosaic.ValueIdx
open Cert.KernelIdeal Cert.KernelIdeal.Gen

/-! ## The contraction's operand indices: row of the left operand, column of the right, the contracted coordinate on
    the left's second axis and the right's first -/

theorem lhs_axis0 (i : S2048x1024.Idx) (q : dot_S2048x13_S13x1024_S2048x1024_1_0_0_1_n_n.contr.Idx) :
    (dot_S2048x13_S13x1024_S2048x1024_1_0_0_1_n_n.lhsIdx i q 0).val = (i 0).val := by
  unfold DotDims.lhsIdx
  rw [dif_neg (show ¬(0 : Fin S2048x13.rank) ∈ dot_S2048x13_S13x1024_S2048x1024_1_0_0_1_n_n.lhsBatch by decide), dif_pos (show (0 : Fin S2048x13.rank) ∈ dot_S2048x13_S13x1024_S2048x1024_1_0_0_1_n_n.lhsNonContracting by decide)]
  rfl
theorem lhs_axis1 (i : S2048x1024.Idx) (q : dot_S2048x13_S13x1024_S2048x1024_1_0_0_1_n_n.contr.Idx) :
    (dot_S2048x13_S13x1024_S2048x1024_1_0_0_1_n_n.lhsIdx i q 1).val = (q ⟨0, by decide⟩).val :=
  dot_S2048x13_S13x1024_S2048x1024_1_0_0_1_n_n.lhsIdx_val_of_single rfl i q
theorem rhs_axis0 (i : S2048x1024.Idx) (q : dot_S2048x13_S13x1024_S2048x1024_1_0_0_1_n_n.contr.Idx) :
    (dot_S2048x13_S13x1024_S2048x1024_1_0_0_1_n_n.rhsIdx i q 0).val = (q ⟨0, by decide⟩).val :=
  dot_S2048x13_S13x1024_S2048x1024_1_0_0_1_n_n.rhsIdx_val_of_single rfl i q
theorem rhs_axis1 (i : S2048x1024.Idx) (q : dot_S2048x13_S13x1024_S2048x1024_1_0_0_1_n_n.contr.Idx) :
    (dot_S2048x13_S13x1024_S2048x1024_1_0_0_1_n_n.rhsIdx i q 1).val = (i 1).val := by
  unfold DotDims.rhsIdx
  rw [dif_neg (show ¬(1 : Fin S13x1024.rank) ∈ dot_S2048x13_S13x1024_S2048x1024_1_0_0_1_n_n.rhsBatch by decide), dif_pos (show (1 : Fin S13x1024.rank) ∈ dot_S2048x13_S13x1024_S2048x1024_1_0_0_1_n_n.rhsNonContracting by decide)]
  rfl

/-! ## The two [2048, 13] rectangles the shift takes -/

/-- The ids down the rows: entry (p, k) is id p. -/
theorem idsRect_apply (x0 : IVec S2048 32) (p : Fin 2048) (k : Fin 13) :
    broadcastTo S2048x13 (shapeCast S2048x1 x0 shapeCasts_S2048_S2048x1) broadcasts_S2048x1_S2048x13 (ix2 p k) = x0 (ix1 p) := by
  rw [broadcastTo_apply _ broadcasts_S2048x1_S2048x13 (ix2 p k) (ix2 p (⟨0, Nat.one_pos⟩ : Fin 1))
    (fun a => by match a with
      | ⟨0, _⟩ => show p.val = if (2048 : Nat) = 1 then 0 else p.val; rw [if_neg (by decide)]
      | ⟨1, _⟩ => show 0 = if (1 : Nat) = 1 then 0 else k.val; rw [if_pos rfl])]
  exact shapeCast_apply x0 shapeCasts_S2048_S2048x1 (ix2 p (⟨0, Nat.one_pos⟩ : Fin 1)) (ix1 p)
    (by rewrite [Shape.rowMajor_val_two, Shape.rowMajor_val_one]; show p.val = p.val * 1 + 0; omega)

/-- The shift amounts along the columns: entry (p, k) is the word k. -/
theorem amountsRect_apply (p : Fin 2048) (k : Fin 13) :
    broadcastTo S2048x13 (iota .tc S1x13 32 [1] iota_S1x13_d1_w32) broadcasts_S1x13_S2048x13 (ix2 p k) = BitVec.ofNat 32 k.val := by
  rw [broadcastTo_apply _ broadcasts_S1x13_S2048x13 (ix2 p k) (ix2 (⟨0, Nat.one_pos⟩ : Fin 1) k)
    (fun a => by match a with
      | ⟨0, _⟩ => show 0 = if (1 : Nat) = 1 then 0 else p.val; rw [if_pos rfl]
      | ⟨1, _⟩ => show k.val = if (13 : Nat) = 1 then 0 else k.val; rw [if_neg (by decide)])]
  exact iota_single_apply .tc S1x13 32 1 iota_S1x13_d1_w32 (ix2 (⟨0, Nat.one_pos⟩ : Fin 1) k)

/-! ## The payload -/

/-- Entry (p, q) of the body's stored value: the sum over the thirteen bits of id p of bit · table[k, q]. -/
theorem payload_apply (x0 : Vec Ideal S2048 .i32) (x1 : Vec Ideal S13x1024 .bf16) (p : Fin 2048) (q : Fin 1024) :
    k0_pay1 (F := Ideal) x0 x1 (ix2 p q) = ∑ k : Fin 13, bit (x0 (ix1 p)) k * x1 (ix2 k q) := by
  unfold k0_pay1
  simp only [shapeCast_self, Idealize.ShloMosaic.matmul]
  rw [Ideal.matmul_constant_zero_apply, ← Equiv.sum_comp (contrEquiv1 dot_S2048x13_S13x1024_S2048x1024_1_0_0_1_n_n 13 rfl rfl).symm]
  refine Finset.sum_congr rfl fun k _ => ?_
  have hk := contrEquiv1_symm_val dot_S2048x13_S13x1024_S2048x1024_1_0_0_1_n_n 13 rfl rfl k
  have el : dot_S2048x13_S13x1024_S2048x1024_1_0_0_1_n_n.lhsIdx (ix2 p q) ((contrEquiv1 dot_S2048x13_S13x1024_S2048x1024_1_0_0_1_n_n 13 rfl rfl).symm k) = ix2 p k := funext fun a => Fin.ext (by
    match a with
    | ⟨0, _⟩ => exact lhs_axis0 _ _
    | ⟨1, _⟩ => exact (lhs_axis1 _ _).trans hk)
  have er : dot_S2048x13_S13x1024_S2048x1024_1_0_0_1_n_n.rhsIdx (ix2 p q) ((contrEquiv1 dot_S2048x13_S13x1024_S2048x1024_1_0_0_1_n_n 13 rfl rfl).symm k) = ix2 k q := funext fun a => Fin.ext (by
    match a with
    | ⟨0, _⟩ => exact (rhs_axis0 _ _).trans hk
    | ⟨1, _⟩ => exact rhs_axis1 _ _)
  rw [el, er]
  congr 1
  show (((IntOp.andi (IntOp.shrsi .vector
      (broadcastTo S2048x13 (shapeCast S2048x1 x0 shapeCasts_S2048_S2048x1) broadcasts_S2048x1_S2048x13 (ix2 p k))
      (broadcastTo S2048x13 (iota .tc S1x13 32 [1] iota_S1x13_d1_w32) broadcasts_S1x13_S2048x13 (ix2 p k))) 1#32).toInt : ℝ) : EReal) = _
  rw [idsRect_apply, amountsRect_apply]
  exact bit_unit .vector _ k

end Cert.BitEmbed

end
-- ==== Proof.KernelValue.lean ====
/-
  The kernel's result array is `G` of the arguments, where every id is in [0, 8192).

  The grid has 16 points. At point `t` the id window's block is rows 2048·t … 2048·t + 2047 of the (kept, flattened) ids,
  the table window's block is the whole [13, 1024] table array at every point, and the output window's block is rows
  2048·t … 2048·t + 2047 of the [32768, 1024] result, all 1024 columns. What point `t` writes back is the body's stored
  value of those two blocks, so its entry (p, q) is the sum over k < 13 of bit_k(id 2048·t + p) · table[k, q]: block `t` of `G`.
  Row `r` of the result lies in the block of point r / 2048, so the sixteen blocks cover the array and it ends holding `G`.
-/
import proofs.«411446_j11562051961176_3_alg».proof.Proof.Gen.KernelIdeal.Value
import proofs.«411446_j11562051961176_3_alg».proof.Proof.HostSide
import proofs.«411446_j11562051961176_3_alg».proof.Proof.Payload

noncomputable section

open scoped BigOperators

namespace Cert.BitEmbed

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The block index of each window at each of the sixteen points: the id window and the output window move down one
    block of rows per point; the table window stays on its one block. -/
theorem idx_facts : ∀ t : Fin cfg0.N, win0_0.index t (0 : Fin 1) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The range fact on the ids, as the precondition gives it. -/
abbrev InRange (x : IVec S4x8192 32) : Prop :=
  ∀ i : S4x8192.Idx, IntOp.andi (IntOp.cmpi .sge (x i) 0#32) (IntOp.cmpi .slt (x i) 8192#32) = 1#1

/-- Row `p` of the id block at point `t` is the id of flattened row 2048·t + p. -/
theorem idsBlock_apply (c : Dev nD) (hx : InRange (m ((c : Thread nD τ).loc main_arg0))) (t : Fin cfg0.N) (p : Fin 2048)
    (r : Fin 32768) (hr : r.val = t.val * 2048 + p.val) :
    (iblk m c 0 t : Vec Ideal S2048 .i32) (ix1 p) = (m ((c : Thread nD τ).loc main_arg0) : IVec S4x8192 32) (pos r) := by
  unfold iblk
  rw [View.read_apply]
  show (V m c main_call0_v9 : S32768.Idx → BitVec 32) (((cfg0.win 0).blk t).view.emb (ix1 p)) = _
  have e : ((cfg0.win 0).blk t).view.emb (ix1 p) = ix1 r := funext fun a => Fin.ext (by
    match a with
    | ⟨0, _⟩ => show win0_0.index t (0 : Fin 1) * 2048 + 1 * p.val = r.val; rw [(idx_facts t).1, hr]; omega)
  rw [e, V_ids m c, kept_apply _ hx]

/-- Entry (k, q) of the table block, at every point, is table[k, q]. -/
theorem tableBlock_apply (c : Dev nD) (t : Fin cfg0.N) (k : Fin 13) (q : Fin 1024) :
    (iblk m c 1 t : Vec Ideal S13x1024 .bf16) (ix2 k q) = (m ((c : Thread nD τ).loc main_arg1) : FVec Ideal S14x1024 .f32) (cell k q) := by
  unfold iblk
  rw [View.read_apply]
  show (V m c main_call0_v8 : S13x1024.Idx → Ideal .bf16) (((cfg0.win 1).blk t).view.emb (ix2 k q)) = _
  have e : ((cfg0.win 1).blk t).view.emb (ix2 k q) = ix2 k q := funext fun a => Fin.ext (by
    match a with
    | ⟨0, _⟩ => show win0_1.index t (0 : Fin 2) * 13 + 1 * k.val = k.val; rw [(idx_facts t).2.1]; omega
    | ⟨1, _⟩ => show win0_1.index t (1 : Fin 2) * 1024 + 1 * q.val = q.val; rw [(idx_facts t).2.2.1]; omega)
  rw [e, V_table m c]
  show extractStridedSlice S13x1024 ![0, 0] (m ((c : Thread nD τ).loc main_arg1)) slices_S14x1024_S13x1024_0_0 (ix2 k q) = _
  exact extractStridedSlice_apply ![0, 0] _ slices_S14x1024_S13x1024_0_0 (ix2 k q) (cell k q) (fun a => by
    match a with
    | ⟨0, _⟩ => show k.val = 0 + k.val; omega
    | ⟨1, _⟩ => show q.val = 0 + q.val; omega)

/-- WHAT POINT `t` WRITES BACK is block `t` of `G` of the two arguments. -/
theorem flushed_eq (c : Dev nD) (hx : InRange (m ((c : Thread nD τ).loc main_arg0))) (t : Fin cfg0.N) :
    (dats m 0 c).flushed 2 t
      = ((cfg0.win 2).blk t).view.read (Elt Ideal) (G (m ((c : Thread nD τ).loc main_arg0)) (m ((c : Thread nD τ).loc main_arg1))) := by
  rw [Cert.KernelIdeal.Value.flushed2]
  unfold out0_2
  rw [View.canon_unit_zero hz2]
  simp only [View.ld_unit_zero (S := S2048) hz1, View.ld_unit_zero (S := S13x1024) hz2]
  have hN : cfg0.N = 16 := N_0
  have ht : t.val < 16 := hN ▸ t.isLt
  funext j
  obtain ⟨p, q, rfl⟩ : ∃ (p : Fin 2048) (q : Fin 1024), j = ix2 p q := ⟨j 0, j 1, eq_ix2 j⟩
  have hp := p.isLt
  let r : Fin 32768 := ⟨t.val * 2048 + p.val, by omega⟩
  have e : ((cfg0.win 2).blk t).view.emb (ix2 p q) = ix2 r q := funext fun a => Fin.ext (by
    match a with
    | ⟨0, _⟩ => show win0_2.index t (0 : Fin 2) * 2048 + 1 * p.val = t.val * 2048 + p.val; rw [(idx_facts t).2.2.2.1]; omega
    | ⟨1, _⟩ => show win0_2.index t (1 : Fin 2) * 1024 + 1 * q.val = q.val; rw [(idx_facts t).2.2.2.2]; omega)
  show k0_pay1 (F := Ideal) (iblk m c 0 t) (iblk m c 1 t) (ix2 p q)
    = G (m ((c : Thread nD τ).loc main_arg0)) (m ((c : Thread nD τ).loc main_arg1)) (((cfg0.win 2).blk t).view.emb (ix2 p q))
  rw [e]
  refine (payload_apply _ _ p q).trans ?_
  unfold G
  refine Finset.sum_congr rfl fun k _ => ?_
  rw [idsBlock_apply m c hx t p r rfl, tableBlock_apply m c t k q]

/-- An index of the result is in point `t`'s block iff each coordinate is in the block's range on its axis. -/
theorem mem_blk (t : Fin cfg0.N) (i : S32768x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v0).slice (win0_2.rect t)).set ↔ _
  rw [View.set_slice_whole, Rect.mem_set_unit]
  exact Iff.rfl

/-- Row r of the result is in the block of point r / 2048: the sixteen blocks cover the array. -/
theorem cover (i : S32768x1024.Idx) :
    ∃ t : Fin cfg0.N, (cfg0.win 2).flush t = true ∧ i ∈ ((cfg0.win 2).blk t).view.set := by
  have hN : cfg0.N = 16 := N_0
  have hi0 : (i 0).val < 32768 := (i 0).isLt
  have hi1 : (i 1).val < 1024 := (i 1).isLt
  let t : Fin cfg0.N := ⟨(i 0).val / 2048, by rw [hN]; omega⟩
  refine ⟨t, flush0_2 t, ?_⟩
  rw [mem_blk]
  have q0 : win0_2.index t (0 : Fin 2) = (i 0).val / 2048 := (idx_facts t).2.2.2.1
  have q1 : win0_2.index t (1 : Fin 2) = 0 := (idx_facts t).2.2.2.2
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE RESULT ARRAY after the run is `G` of the two arguments. -/
theorem final (c : Dev nD) (hx : InRange (m ((c : Thread nD τ).loc main_arg0))) :
    (dats m 0 c).arrAt 2 cfg0.N = G (m ((c : Thread nD τ).loc main_arg0)) (m ((c : Thread nD τ).loc main_arg1)) :=
  (dats m 0 c).arrAt_eq_of_cover 2 _ (fun t _ => flushed_eq m c hx t) cover

/-- The run, read: the result array at `G` of the arguments, the arguments unchanged. -/
theorem run (hx : ∀ c : Dev nD, InRange (m ((c : Thread nD τ).loc main_arg0))) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hx c)), (h c).2⟩)
    (Cert.KernelIdeal.Value.run_blocks m ρ)

end Cert.BitEmbed

end
-- ==== Proof.lean ====
/-
  A bit-mask embedding of position ids, against its plain reference.

  Both programs take ids `x : i32[4, 8192]` and a table `e : f32[14, 1024]` and return `out : f32[32768, 1024]` with
  `out[r, q] = ∑ k < 13, bit_k(x_r) · e[k, q]`, where `x_r` is the id of flattened row r and `bit_k(w) = (w >> k) & 1`: the
  rows of the table selected by the set bits of the id, added up (Proof/Spec.lean, `G`).
  The reference computes this for the whole array at once: the [32768, 13] matrix of bits times the first thirteen rows of
  the table (Proof/Reference.lean). The kernel first replaces every id outside [0, 8192) by 0, then computes the same sum
  2048 rows at a time over a grid of 16 points, the bits in a narrower float format (a change of format is the identity
  on the extended reals) and the product into a zero accumulator (Proof/HostSide.lean, Proof/Payload.lean,
  Proof/KernelValue.lean). The two differ exactly on ids outside [0, 8192), whose low thirteen bits the reference still reads;
  the precondition states that every id lies in [0, 8192) (Proof/Domain.lean), and there the kernel's replacement changes
  nothing and the two results are the same sum, term by term, in the same order. No algebraic law beyond that is used, and
  the finiteness of the table plays no part.
  The three frames are the generated ones (the reference's is its generated run with the result dropped); the idealization
  rewrote nothing, so `preserves` is trivial.
-/
import proofs.«411446_j11562051961176_3_alg».proof.Defs
import proofs.«411446_j11562051961176_3_alg».proof.Proof.Gen.Kernel
import proofs.«411446_j11562051961176_3_alg».proof.Proof.Gen.Kernel.Skeleton
import proofs.«411446_j11562051961176_3_alg».proof.Proof.Gen.Kernel.Launch
import proofs.«411446_j11562051961176_3_alg».proof.Proof.Gen.Kernel.Points
import proofs.«411446_j11562051961176_3_alg».proof.Proof.Gen.Kernel.Frame
import proofs.«411446_j11562051961176_3_alg».proof.Proof.Gen.KernelIdeal
import proofs.«411446_j11562051961176_3_alg».proof.Proof.Gen.KernelIdeal.Skeleton
import proofs.«411446_j11562051961176_3_alg».proof.Proof.Gen.KernelIdeal.Launch
import proofs.«411446_j11562051961176_3_alg».proof.Proof.Gen.KernelIdeal.Points
import proofs.«411446_j11562051961176_3_alg».proof.Proof.Gen.KernelIdeal.Frame
import proofs.«411446_j11562051961176_3_alg».proof.Proof.Gen.ReferenceIdeal
import proofs.«411446_j11562051961176_3_alg».proof.Proof.Gen.Pre_finite_inputs
import proofs.«411446_j11562051961176_3_alg».proof.Proof.Gen.KernelIdeal.Value
import proofs.«411446_j11562051961176_3_alg».proof.Proof.Gen.ReferenceIdeal.Run
import proofs.«411446_j11562051961176_3_alg».proof.Proof.Gen.ReferenceIdeal.Read
import Idealize.ShloMosaic.Adequacy
import Idealize.ShloMosaic.Init
import proofs.«411446_j11562051961176_3_alg».proof.Proof.Domain
import proofs.«411446_j11562051961176_3_alg».proof.Proof.Reference
import proofs.«411446_j11562051961176_3_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the ids and the table, with every id in [0, 8192): the kernel's result array and the
    reference's are both `G` of the ids and the table. -/
theorem algebraic : Cert.algebraic_KernelIdeal_ReferenceIdeal := by
  intro m ρ m' ρ' hpre hagree
  have hx : ∀ c : Dev Cert.KernelIdeal.nD, Cert.BitEmbed.InRange (m ((c : Thread Cert.KernelIdeal.nD Cert.KernelIdeal.τ).loc Cert.KernelIdeal.main_arg0)) :=
    fun c i => Cert.BitEmbed.inRange_of_pre _ _ (hpre c) i
  refine ⟨fun c => Cert.BitEmbed.G (m ((c : Thread Cert.KernelIdeal.nD Cert.KernelIdeal.τ).loc Cert.KernelIdeal.main_arg0))
      (m ((c : Thread Cert.KernelIdeal.nD Cert.KernelIdeal.τ).loc Cert.KernelIdeal.main_arg1)), Cert.BitEmbed.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.BitEmbed.reference_eq_G, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
